-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000x24 : Shape := ⟨2, ![3200000, 24]⟩
abbrev S3200000 : Shape := ⟨1, ![3200000]⟩
abbrev S100000x1 : Shape := ⟨2, ![100000, 1]⟩
abbrev S512x536 : Shape := ⟨2, ![512, 536]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000x24 : S_.BroadcastsInDim S3200000x24 (![] : Fin 0 → Fin S3200000x24.rank)
  reducesTo_S3200000x24_S_d0_1 : S3200000x24.ReducesTo [0, 1] S_
  bcast_S_S100000x1 : S_.BroadcastsInDim S100000x1 (![] : Fin 0 → Fin S100000x1.rank)
  reducesTo_S100000x1_S_d0_1 : S100000x1.ReducesTo [0, 1] S_
  bcast_S_S512x536 : S_.BroadcastsInDim S512x536 (![] : Fin 0 → Fin S512x536.rank)
  reducesTo_S512x536_S_d0_1 : S512x536.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512 .f32) (main_arg7 : FVec F S512 .f32) (main_v13 : IVec S_ 1) (main_v16 : IVec S512x536 1) : IVec S_ 1 :=
  let main_c_5 : IVec S_ 1 := constantI S_ 1 1#1
  let main_v17 : IVec S_ 1 := (fun x v => Host.reduce IntOp.andi x v reducesTo_S512x536_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S100000x512 .f32) (main_arg1 : FVec F S3200000x24 .f32) (main_arg2 : IVec S3200000 32) (main_arg3 : FVec F S100000x1 .f32) (main_arg4 : FVec F S512x536 .f32) (main_arg5 : FVec F S512 .f32) (main_arg6 : FVec F S512 .f32) (main_arg7 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000x24 .f32 := Host.absf main_arg1
  let main_cst_0 : FVec F S_ .f32 := constant S_ .f32 0x7F800000#32
  let main_v5 : FVec F S3200000x24 .f32 := broadcastInDim S3200000x24 ![] bcast_S_S3200000x24 main_cst_0
  let main_v6 : IVec S3200000x24 1 := cmpf .olt main_v4 main_v5
  let main_c_1 : IVec S_ 1 := constantI S_ 1 1#1
  let main_v7 : IVec S_ 1 := (fun x v => Host.reduce IntOp.andi x v reducesTo_S3200000x24_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S512x536 .f32 := Host.absf main_arg4
  let main_cst_4 : FVec F S_ .f32 := constant S_ .f32 0x7F800000#32
  let main_v15 : FVec F S512x536 .f32 := broadcastInDim S512x536 ![] bcast_S_S512x536 main_cst_4
  let main_v16 : IVec S512x536 1 := cmpf .olt main_v14 main_v15
  fn_part1 (F := F) main_arg5 main_arg6 main_arg7 main_v13 main_v16
-- ==== Kernel.lean ====
abbrev S100000x512 : Shape := ⟨2, ![100000, 512]⟩
abbrev S3200000x24 : Shape := ⟨2, ![3200000, 24]⟩
abbrev S3200000 : Shape := ⟨1, ![3200000]⟩
abbrev S100000x1 : Shape := ⟨2, ![100000, 1]⟩
abbrev S512x536 : Shape := ⟨2, ![512, 536]⟩
abbrev S512 : Shape := ⟨1, ![512]⟩
abbrev S_ : Shape := ⟨0, ![]⟩
abbrev S100000x24 : Shape := ⟨2, ![100000, 24]⟩
abbrev S3200000x1 : Shape := ⟨2, ![3200000, 1]⟩
abbrev S512x512 : Shape := ⟨2, ![512, 512]⟩
abbrev S512x24 : Shape := ⟨2, ![512, 24]⟩
abbrev S24x512 : Shape := ⟨2, ![24, 512]⟩
abbrev S1000x512 : Shape := ⟨2, ![1000, 512]⟩
abbrev S1000x24 : Shape := ⟨2, ![1000, 24]⟩
abbrev S1x512 : Shape := ⟨2, ![1, 512]⟩
abbrev S1000 : Shape := ⟨1, ![1000]⟩
abbrev S1000x1 : Shape := ⟨2, ![1000, 1]⟩

abbrev nBuf : Space → Nat
  | .hbm => 19
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S3200000x24, .f32⟩
  | .hbm, ⟨2, _⟩ => ⟨S3200000, .i32⟩
  | .hbm, ⟨3, _⟩ => ⟨S100000x1, .f32⟩
  | .hbm, ⟨4, _⟩ => ⟨S512x536, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S100000x24, .f32⟩
  | .hbm, ⟨10, _⟩ => ⟨S3200000x1, .i32⟩
  | .hbm, ⟨11, _⟩ => ⟨S100000x24, .f32⟩
  | .hbm, ⟨12, _⟩ => ⟨S100000x24, .f32⟩
  | .hbm, ⟨13, _⟩ => ⟨S100000x24, .f32⟩
  | .hbm, ⟨14, _⟩ => ⟨S512x512, .f32⟩
  | .hbm, ⟨15, _⟩ => ⟨S512x512, .f32⟩
  | .hbm, ⟨16, _⟩ => ⟨S512x24, .f32⟩
  | .hbm, ⟨17, _⟩ => ⟨S24x512, .f32⟩
  | .hbm, ⟨18, _⟩ => ⟨S100000x512, .f32⟩
  | .local _ .vmem, ⟨0, _⟩ => ⟨S1000x512, .f32⟩
  | .local _ .vmem, ⟨1, _⟩ => ⟨S1000x512, .f32⟩
  | .local _ .vmem, ⟨2, _⟩ => ⟨S1000x24, .f32⟩
  | .local _ .vmem, ⟨3, _⟩ => ⟨S1000x24, .f32⟩
  | .local _ .vmem, ⟨4, _⟩ => ⟨S512x512, .f32⟩
  | .local _ .vmem, ⟨5, _⟩ => ⟨S24x512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S1000x512, .f32⟩
  | .local _ .vmem, ⟨10, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S100000x24 : S_.BroadcastsInDim S100000x24 (![] : Fin 0 → Fin S100000x24.rank)
  bcast_S3200000_S3200000x1_0 : S3200000.BroadcastsInDim S3200000x1 (![0] : Fin 1 → Fin S3200000x1.rank)
  bcast_S100000x1_S100000x24_0_1 : S100000x1.BroadcastsInDim S100000x24 (![0, 1] : Fin 2 → Fin S100000x24.rank)
  slices_S512x536_S512x512_0_0 : S512x536.Slices ![0, 0] S512x512
  transposes_S512x512_S512x512_1_0 : S512x512.Transposes [1, 0] S512x512
  slices_S512x536_S512x24_0_512 : S512x536.Slices ![0, 512] S512x24
  transposes_S512x24_S24x512_1_0 : S512x24.Transposes [1, 0] S24x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S1000x24_S1000x24_0_0 : ∀ a, (![0, 0] : Fin 2 → Nat) a + S1000x24.size a ≤ S1000x24.size a
  h_S1000x24 : 0 < S1000x24.numel
  shapeCasts_S1000x24_S1000x24 : S1000x24.ShapeCasts S1000x24
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S24x512_S24x512_0_0 : ∀ a, (![0, 0] : Fin 2 → Nat) a + S24x512.size a ≤ S24x512.size a
  h_S24x512 : 0 < S24x512.numel
  shapeCasts_S24x512_S24x512 : S24x512.ShapeCasts S24x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  scatter_S100000x24_S3200000x1_S3200000x24_1_0_0_1_wf : ScatterDims.WF S100000x24 S3200000x1 S3200000x24 [1] [0] [0] 1
  dot_S1000x512_S512x512_S1000x512_1_0_0_1_n_n_wf : DotDims.WF S1000x512 S512x512 S1000x512 [1] [0] [0] [1] [] []
  dot_S1000x24_S24x512_S1000x512_1_0_0_1_n_n_wf : DotDims.WF S1000x24 S24x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x24.size a ≤ S100000x24.size a
  hwx0_1 : ∀ i : grid0.Coords, EltTy.bits .f32 = 32 ∨ (Rect.block (s := S100000x24) S1000x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x512.size a ≤ S24x512.size a
  hwx0_3 : ∀ i : grid0.Coords, EltTy.bits .f32 = 32 ∨ (Rect.block (s := S24x512) S24x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x512.size a ≤ S100000x512.size a
  hwx0_7 : ∀ i : grid0.Coords, EltTy.bits .f32 = 32 ∨ (Rect.block (s := S100000x512) S1000x512.size (cc0_transform_7 i) (hinb0_7 i)).WholeWords (EltTy.packing .f32)

variable [Facts₀]

def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x24_S24x512_S1000x512_1_0_0_1_n_n : DotDims S1000x24 S24x512 S1000x512 where
  lhsContracting := [1]
  rhsContracting := [0]
  lhsNonContracting := [0]
  rhsNonContracting := [1]
  lhsBatch := []
  rhsBatch := []
  wf := dot_S1000x24_S24x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S24x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x512 : Shape := ⟨2, ![100000, 512]⟩
abbrev S3200000x24 : Shape := ⟨2, ![3200000, 24]⟩
abbrev S3200000 : Shape := ⟨1, ![3200000]⟩
abbrev S100000x1 : Shape := ⟨2, ![100000, 1]⟩
abbrev S512x536 : Shape := ⟨2, ![512, 536]⟩
abbrev S512 : Shape := ⟨1, ![512]⟩
abbrev S_ : Shape := ⟨0, ![]⟩
abbrev S100000x24 : Shape := ⟨2, ![100000, 24]⟩
abbrev S3200000x1 : Shape := ⟨2, ![3200000, 1]⟩
abbrev S100000x536 : Shape := ⟨2, ![100000, 536]⟩
abbrev S1x512 : Shape := ⟨2, ![1, 512]⟩
abbrev S100000 : Shape := ⟨1, ![100000]⟩

abbrev nBuf : Space → Nat
  | .hbm => 51
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000x24, .f32⟩
  | .hbm, ⟨2, _⟩ => ⟨S3200000, .i32⟩
  | .hbm, ⟨3, _⟩ => ⟨S100000x1, .f32⟩
  | .hbm, ⟨4, _⟩ => ⟨S512x536, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S100000x24, .f32⟩
  | .hbm, ⟨10, _⟩ => ⟨S3200000x1, .i32⟩
  | .hbm, ⟨11, _⟩ => ⟨S100000x24, .f32⟩
  | .hbm, ⟨12, _⟩ => ⟨S100000x24, .f32⟩
  | .hbm, ⟨13, _⟩ => ⟨S100000x24, .f32⟩
  | .hbm, ⟨14, _⟩ => ⟨S100000x536, .f32⟩
  | .hbm, ⟨15, _⟩ => ⟨S100000x512, .f32⟩
  | .hbm, ⟨16, _⟩ => ⟨S1x512, .f32⟩
  | .hbm, ⟨17, _⟩ => ⟨S100000x512, .f32⟩
  | .hbm, ⟨18, _⟩ => ⟨S100000x512, .f32⟩
  | .hbm, ⟨19, _⟩ => ⟨S_, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S100000x512, .f32⟩
  | .hbm, ⟨26, _⟩ => ⟨S100000x512, .f32⟩
  | .hbm, ⟨27, _⟩ => ⟨S100000x512, .f32⟩
  | .hbm, ⟨28, _⟩ => ⟨S_, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x512, .f32⟩
  | .hbm, ⟨35, _⟩ => ⟨S100000x512, .f32⟩
  | .hbm, ⟨36, _⟩ => ⟨S1x512, .f32⟩
  | .hbm, ⟨37, _⟩ => ⟨S100000x512, .f32⟩
  | .hbm, ⟨38, _⟩ => ⟨S100000x512, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x1, .f32⟩
  | .hbm, ⟨43, _⟩ => ⟨S100000x512, .f32⟩
  | .hbm, ⟨44, _⟩ => ⟨S100000x512, .f32⟩
  | .hbm, ⟨45, _⟩ => ⟨S1x512, .f32⟩
  | .hbm, ⟨46, _⟩ => ⟨S100000x512, .f32⟩
  | .hbm, ⟨47, _⟩ => ⟨S100000x512, .f32⟩
  | .hbm, ⟨48, _⟩ => ⟨S_, .f32⟩
  | .hbm, ⟨49, _⟩ => ⟨S100000x512, .f32⟩
  | .hbm, ⟨50, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_cst : Ref sig .tc := ⟨.hbm, 48, rfl⟩
abbrev main_call0_v0 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S100000x24 : S_.BroadcastsInDim S100000x24 (![] : Fin 0 → Fin S100000x24.rank)
  bcast_S3200000_S3200000x1_0 : S3200000.BroadcastsInDim S3200000x1 (![0] : Fin 1 → Fin S3200000x1.rank)
  bcast_S100000x1_S100000x24_0_1 : S100000x1.BroadcastsInDim S100000x24 (![0, 1] : Fin 2 → Fin S100000x24.rank)
  concatenates_S100000x512_S100000x24_S100000x536_d1 : Shape.Concatenates [S100000x512, S100000x24] S100000x536 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  scatter_S100000x24_S3200000x1_S3200000x24_1_0_0_1_wf : ScatterDims.WF S100000x24 S3200000x1 S3200000x24 [1] [0] [0] 1
  dot_S100000x536_S512x536_S100000x512_1_1_0_0_n_n_wf : DotDims.WF S100000x536 S512x536 S100000x512 [1] [1] [0] [0] [] []

variable [Facts₀]

def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S100000x536_S512x536_S100000x512_1_1_0_0_n_n : DotDims S100000x536 S512x536 S100000x512 where
  lhsContracting := [1]
  rhsContracting := [1]
  lhsNonContracting := [0]
  rhsNonContracting := [0]
  lhsBatch := []
  rhsBatch := []
  wf := dot_S100000x536_S512x536_S100000x512_1_1_0_0_n_n_wf

class Facts : Prop extends Facts₀ where

variable [Facts]
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.RowNorm.lean ====
/-
  One node's update as functions of a row of 512 features, on the extended reals.

  A node's pre-activation row is an affine image of its own 512 features and of its 24 scaled neighbourhood sums:
  entry `o` is `∑ k, x k · Wx k o + ∑ j, a j · Wa j o + b o`. The row is then normalised: its mean and its (biased)
  variance are taken over the 512 entries, each entry is centred, scaled by `gamma` and by the reciprocal square root of
  the variance plus a small constant, shifted by `beta`, and clipped below at zero.

  The one algebraic law of this certificate is `sum_concat`: a sum over the 536 joined coordinates is the sum over the
  first 512 plus the sum over the last 24. It needs only that addition on the extended reals is commutative and
  associative; no finiteness is used anywhere.
-/
import Idealize.ShloMosaic.Lib.ValueIdx
import Idealize.ShloMosaic.Lib.ValueLayout
import Idealize.ShloMosaic.PureOps.Ideal.Laws

noncomputable section

namespace Cert.NodeRow

open Idealize.ShloMosaic Idealize.ShloMosaic.ValueIdx

/-- The row length 512, the variance's small constant and zero, as the float words both programs spell them with. -/
abbrev width : EReal := Ideal.ofBits .f32 0x44000000#32
abbrev eps : EReal := Ideal.ofBits .f32 0x3727C5AC#32
abbrev zero32 : EReal := Ideal.ofBits .f32 0x00000000#32

/-- The mean of a row: its sum divided by the row length. -/
def mean (y : Fin 512 → EReal) : EReal := Ideal.div (∑ k, y k) width

/-- The biased variance of a row: the mean of the squared centred entries. -/
def var (y : Fin 512 → EReal) : EReal := Ideal.div (∑ k, (y k - mean y) * (y k - mean y)) width

/-- Entry `q` of the normalised row before the shift: `gamma q · (y q - mean) · (var + eps)^(-1/2)`. -/
def scaled (y g : Fin 512 → EReal) (q : Fin 512) : EReal := g q * (y q - mean y) * Ideal.rsqrt (var y + eps)

/-- Entry `q` of the node's new row: the normalised entry shifted by `beta q`, clipped below at zero. -/
def normRelu (y g be : Fin 512 → EReal) (q : Fin 512) : EReal := max (scaled y g q + be q) zero32

/-- Entry `o` of the pre-activation row, with the weight matrix given as its two column bands. -/
def affine (x : Fin 512 → EReal) (a : Fin 24 → EReal) (Wx : Fin 512 → Fin 512 → EReal) (Wa : Fin 24 → Fin 512 → EReal)
    (b : Fin 512 → EReal) (o : Fin 512) : EReal :=
  (∑ k, x k * Wx k o) + (∑ j, a j * Wa j o) + b o

/-- A sum over 536 coordinates is the sum over the first 512 plus the sum over the last 24. -/
theorem sum_concat (f : Fin 536 → EReal) :
    ∑ k : Fin 536, f k = (∑ k : Fin 512, f ⟨k.val, by omega⟩) + ∑ j : Fin 24, f ⟨512 + j.val, by omega⟩ :=
  Fin.sum_univ_add (a := 512) (b := 24) f

/-- The whole result array as one function of the node features `h`, the scaled neighbourhood sums `s`, the weight
    matrix `W` (row `o` holds output `o`'s 536 weights), the bias and the normalisation's scale and shift: row `n` is
    the normalised, clipped affine image of `h`'s and `s`'s row `n`. -/
def nodeUpdate (h : (⟨2, ![100000, 512]⟩ : Shape).Idx → EReal) (s : (⟨2, ![100000, 24]⟩ : Shape).Idx → EReal)
    (W : (⟨2, ![512, 536]⟩ : Shape).Idx → EReal) (b g be : (⟨1, ![512]⟩ : Shape).Idx → EReal) :
    (⟨2, ![100000, 512]⟩ : Shape).Idx → EReal := fun i =>
  normRelu
    (affine (fun k => h (ix2 (i 0) k)) (fun j => s (ix2 (i 0) j))
      (fun k o => W (ix2 o ⟨k.val, by omega⟩)) (fun j o => W (ix2 o ⟨512 + j.val, by omega⟩)) (fun o => b (ix1 o)))
    (fun o => g (ix1 o)) (fun o => be (ix1 o)) (i 1)

/-- The same array with the weight matrix given as its two transposed column bands: `Wx k o` is output `o`'s weight on
    node feature `k`, `Wa j o` its weight on neighbourhood feature `j`. -/
def bandUpdate (h : (⟨2, ![100000, 512]⟩ : Shape).Idx → EReal) (s : (⟨2, ![100000, 24]⟩ : Shape).Idx → EReal)
    (Wx : (⟨2, ![512, 512]⟩ : Shape).Idx → EReal) (Wa : (⟨2, ![24, 512]⟩ : Shape).Idx → EReal)
    (b g be : (⟨1, ![512]⟩ : Shape).Idx → EReal) : (⟨2, ![100000, 512]⟩ : Shape).Idx → EReal := fun i =>
  normRelu
    (affine (fun k => h (ix2 (i 0) k)) (fun j => s (ix2 (i 0) j)) (fun k o => Wx (ix2 k o)) (fun j o => Wa (ix2 j o))
      (fun o => b (ix1 o)))
    (fun o => g (ix1 o)) (fun o => be (ix1 o)) (i 1)

/-- Equal rows, bands, bias, scale and shift give equal entries. -/
theorem normRelu_affine_congr {x x' : Fin 512 → EReal} {a a' : Fin 24 → EReal} {Wx Wx' : Fin 512 → Fin 512 → EReal}
    {Wa Wa' : Fin 24 → Fin 512 → EReal} {b b' g g' be be' : Fin 512 → EReal} (q : Fin 512)
    (hx : x = x') (ha : a = a') (hWx : Wx = Wx') (hWa : Wa = Wa') (hb : b = b') (hg : g = g') (hbe : be = be') :
    normRelu (affine x a Wx Wa b) g be q = normRelu (affine x' a' Wx' Wa' b') g' be' q := by
  subst hx ha hWx hWa hb hg hbe; rfl

/-- With the two bands read off the weight matrix — columns 0 to 511 and columns 512 to 535, each transposed — the band
    form is `nodeUpdate`. -/
theorem bandUpdate_bands (h : (⟨2, ![100000, 512]⟩ : Shape).Idx → EReal) (s : (⟨2, ![100000, 24]⟩ : Shape).Idx → EReal)
    (W : (⟨2, ![512, 536]⟩ : Shape).Idx → EReal) (b g be : (⟨1, ![512]⟩ : Shape).Idx → EReal)
    (h1 : (⟨2, ![512, 536]⟩ : Shape).Slices ![0, 0] ⟨2, ![512, 512]⟩)
    (t1 : (⟨2, ![512, 512]⟩ : Shape).Transposes [1, 0] ⟨2, ![512, 512]⟩)
    (h2 : (⟨2, ![512, 536]⟩ : Shape).Slices ![0, 512] ⟨2, ![512, 24]⟩)
    (t2 : (⟨2, ![512, 24]⟩ : Shape).Transposes [1, 0] ⟨2, ![24, 512]⟩) :
    bandUpdate h s (transpose ⟨2, ![512, 512]⟩ [1, 0] (extractStridedSlice ⟨2, ![512, 512]⟩ ![0, 0] W h1) t1)
        (transpose ⟨2, ![24, 512]⟩ [1, 0] (extractStridedSlice ⟨2, ![512, 24]⟩ ![0, 512] W h2) t2) b g be
      = nodeUpdate h s W b g be := by
  funext i
  unfold bandUpdate nodeUpdate
  refine normRelu_affine_congr (i 1) rfl rfl (funext fun k => funext fun o => ?_) (funext fun j => funext fun o => ?_) rfl rfl rfl
  · exact (transpose_ix2_apply _ t1 k o).trans (slice2_axis1_apply 0 W h1 o k _ (Nat.zero_add _).symm)
  · exact (transpose_ix2_apply _ t2 j o).trans (slice2_axis1_apply 512 W h2 o j _ rfl)

end Cert.NodeRow

end
-- ==== Proof.KernelRow.lean ====
/-
  What one grid point's body computes, read entry by entry.

  The body holds a block of 1000 node rows. Its stored value before the shift and the clip is a function of six loads:
  the block of node features, the block of scaled neighbourhood sums, the two bands of the transposed weight matrix,
  the bias and the normalisation's scale. It factors in two: the block of pre-activations (two block products into a
  zero accumulator, added, plus the bias row repeated down the block), and the row normalisation of that block (row
  sums over the 512 lanes, divided by 512, repeated along the row; the centred block; its squares summed and divided
  again; the reciprocal square root; the scale row repeated down the block). Entry `(p, q)` of the first is the
  affine image of row `p` of the loads; entry `(p, q)` of the second is the normalised entry `q` of row `p`.
  A change of float format is the identity on the extended reals, and so is a cast to the same shape.
-/
import proofs.«178486_j32753420599856_1_alg».proof.Proof.Gen.KernelIdeal.Skeleton
import proofs.«178486_j32753420599856_1_alg».proof.Proof.LibLayout
import proofs.«178486_j32753420599856_1_alg».proof.Proof.RowNorm
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx Cert.NodeRow Cert.LibLayout

/-! ## The two block products as sums over the shared coordinate

Both products are rows-by-columns: the left operand's axis 1 meets the right operand's axis 0. -/

theorem lhs_feat_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_feat_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_feat_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_feat_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

theorem lhs_nbr_0 (i : S1000x512.Idx) (q : dot_S1000x24_S24x512_S1000x512_1_0_0_1_n_n.contr.Idx) :
    (dot_S1000x24_S24x512_S1000x512_1_0_0_1_n_n.lhsIdx i q 0).val = (i 0).val := by
  unfold DotDims.lhsIdx
  rw [dif_neg (show ¬(0 : Fin S1000x24.rank) ∈ dot_S1000x24_S24x512_S1000x512_1_0_0_1_n_n.lhsBatch by decide), dif_pos (show (0 : Fin S1000x24.rank) ∈ dot_S1000x24_S24x512_S1000x512_1_0_0_1_n_n.lhsNonContracting by decide)]
  rfl
theorem lhs_nbr_1 (i : S1000x512.Idx) (q : dot_S1000x24_S24x512_S1000x512_1_0_0_1_n_n.contr.Idx) :
    (dot_S1000x24_S24x512_S1000x512_1_0_0_1_n_n.lhsIdx i q 1).val = (q ⟨0, by decide⟩).val :=
  dot_S1000x24_S24x512_S1000x512_1_0_0_1_n_n.lhsIdx_val_of_single rfl i q
theorem rhs_nbr_0 (i : S1000x512.Idx) (q : dot_S1000x24_S24x512_S1000x512_1_0_0_1_n_n.contr.Idx) :
    (dot_S1000x24_S24x512_S1000x512_1_0_0_1_n_n.rhsIdx i q 0).val = (q ⟨0, by decide⟩).val :=
  dot_S1000x24_S24x512_S1000x512_1_0_0_1_n_n.rhsIdx_val_of_single rfl i q
theorem rhs_nbr_1 (i : S1000x512.Idx) (q : dot_S1000x24_S24x512_S1000x512_1_0_0_1_n_n.contr.Idx) :
    (dot_S1000x24_S24x512_S1000x512_1_0_0_1_n_n.rhsIdx i q 1).val = (i 1).val := by
  unfold DotDims.rhsIdx
  rw [dif_neg (show ¬(1 : Fin S24x512.rank) ∈ dot_S1000x24_S24x512_S1000x512_1_0_0_1_n_n.rhsBatch by decide), dif_pos (show (1 : Fin S24x512.rank) ∈ dot_S1000x24_S24x512_S1000x512_1_0_0_1_n_n.rhsNonContracting by decide)]
  rfl

/-- The node-feature block times the first weight band, into zero: at `(p, o)` the sum over the 512 features. -/
theorem feat_product_apply (A : FVec Ideal S1000x512 .bf16) (B : FVec Ideal S512x512 .bf16) (p : Fin 1000) (o : Fin 512) :
    matmul dot_S1000x512_S512x512_S1000x512_1_0_0_1_n_n none A B (constant S1000x512 .f32 0x00000000#32) (ix2 p o) = ∑ k : Fin 512, A (ix2 p k) * B (ix2 k o) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p o) ((contrEquiv1 dot_S1000x512_S512x512_S1000x512_1_0_0_1_n_n 512 rfl rfl).symm k) = ix2 p k := funext fun a => Fin.ext (by
    match a with
    | ⟨0, _⟩ => exact lhs_feat_0 _ _
    | ⟨1, _⟩ => exact (lhs_feat_1 _ _).trans hk)
  have er : dot_S1000x512_S512x512_S1000x512_1_0_0_1_n_n.rhsIdx (ix2 p o) ((contrEquiv1 dot_S1000x512_S512x512_S1000x512_1_0_0_1_n_n 512 rfl rfl).symm k) = ix2 k o := funext fun a => Fin.ext (by
    match a with
    | ⟨0, _⟩ => exact (rhs_feat_0 _ _).trans hk
    | ⟨1, _⟩ => exact rhs_feat_1 _ _)
  rw [el, er]

/-- The neighbourhood-sum block times the second weight band, into zero: at `(p, o)` the sum over the 24 edge features. -/
theorem nbr_product_apply (A : FVec Ideal S1000x24 .bf16) (B : FVec Ideal S24x512 .bf16) (p : Fin 1000) (o : Fin 512) :
    matmul dot_S1000x24_S24x512_S1000x512_1_0_0_1_n_n none A B (constant S1000x512 .f32 0x00000000#32) (ix2 p o) = ∑ k : Fin 24, A (ix2 p k) * B (ix2 k o) := by
  simp only [matmul]
  rw [Ideal.matmul_constant_zero_apply, ← Equiv.sum_comp (contrEquiv1 dot_S1000x24_S24x512_S1000x512_1_0_0_1_n_n 24 rfl rfl).symm]
  refine Finset.sum_congr rfl fun k _ => ?_
  have hk := contrEquiv1_symm_val dot_S1000x24_S24x512_S1000x512_1_0_0_1_n_n 24 rfl rfl k
  have el : dot_S1000x24_S24x512_S1000x512_1_0_0_1_n_n.lhsIdx (ix2 p o) ((contrEquiv1 dot_S1000x24_S24x512_S1000x512_1_0_0_1_n_n 24 rfl rfl).symm k) = ix2 p k := funext fun a => Fin.ext (by
    match a with
    | ⟨0, _⟩ => exact lhs_nbr_0 _ _
    | ⟨1, _⟩ => exact (lhs_nbr_1 _ _).trans hk)
  have er : dot_S1000x24_S24x512_S1000x512_1_0_0_1_n_n.rhsIdx (ix2 p o) ((contrEquiv1 dot_S1000x24_S24x512_S1000x512_1_0_0_1_n_n 24 rfl rfl).symm k) = ix2 k o := funext fun a => Fin.ext (by
    match a with
    | ⟨0, _⟩ => exact (rhs_nbr_0 _ _).trans hk
    | ⟨1, _⟩ => exact rhs_nbr_1 _ _)
  rw [el, er]

/-! ## The stored value in two factors -/

/-- The block of pre-activations: both products, added, plus the bias row repeated down the block. -/
def preact (P0 : Vec Ideal S1000x512 .f32) (P1 : Vec Ideal S1000x24 .f32) (P2 : Vec Ideal S512x512 .f32) (P3 : Vec Ideal S24x512 .f32)
    (P4 : Vec Ideal S512 .f32) : FVec Ideal S1000x512 .f32 :=
  addf
    (addf
      (matmul dot_S1000x512_S512x512_S1000x512_1_0_0_1_n_n none (truncf .bf16 P0 bitsLt_bf16_f32)
        (truncf .bf16 (shapeCast S512x512 P2 shapeCasts_S512x512_S512x512) bitsLt_bf16_f32) (constant S1000x512 .f32 0x00000000#32))
      (matmul dot_S1000x24_S24x512_S1000x512_1_0_0_1_n_n none (truncf .bf16 (shapeCast S1000x24 P1 shapeCasts_S1000x24_S1000x24) bitsLt_bf16_f32)
        (truncf .bf16 (shapeCast S24x512 P3 shapeCasts_S24x512_S24x512) bitsLt_bf16_f32) (constant S1000x512 .f32 0x00000000#32)))
    (broadcastTo S1000x512 (shapeCast S1x512 P4 shapeCasts_S512_S1x512) broadcasts_S1x512_S1000x512)

/-- The column of row means of a block: the lane sums, as a column, divided by 512. -/
def meanCol (Y : FVec Ideal S1000x512 .f32) : FVec Ideal S1000x1 .f32 :=
  divf (shapeCast S1000x1 (multiReduction .add [1] S1000 Y 0x00000000#32 reduces_S1000x512_S1000 (.inl rfl) rfl) shapeCasts_S1000_S1000x1)
    (broadcast S1000x1 (Scalar.ofBits .f32 0x44000000#32))

/-- The block with each row's mean taken off. -/
def centred (Y : FVec Ideal S1000x512 .f32) : FVec Ideal S1000x512 .f32 :=
  subf Y (broadcastTo S1000x512 (meanCol Y) broadcasts_S1000x1_S1000x512)

/-- The normalised block before the shift: the scale row times the centred block times each row's reciprocal
    square root of its variance plus the small constant. -/
def normed (Y : FVec Ideal S1000x512 .f32) (P5 : Vec Ideal S512 .f32) : FVec Ideal S1000x512 .f32 :=
  mulf (mulf (broadcastTo S1000x512 (shapeCast S1x512 P5 shapeCasts_S512_S1x512) broadcasts_S1x512_S1000x512) (centred Y))
    (broadcastTo S1000x512
      (rsqrt (addf (meanCol (mulf (centred Y) (centred Y))) (broadcast S1000x1 (Scalar.ofBits .f32 0x3727C5AC#32))))
      broadcasts_S1000x1_S1000x512)

/-- The body's stored value before the shift and the clip is the normalisation of the pre-activations. -/
theorem pay_eq (P0 : Vec Ideal S1000x512 .f32) (P1 : Vec Ideal S1000x24 .f32) (P2 : Vec Ideal S512x512 .f32) (P3 : Vec Ideal S24x512 .f32)
    (P4 P5 : Vec Ideal S512 .f32) : k0_pay2 P0 P1 P2 P3 P4 P5 = normed (preact P0 P1 P2 P3 P4) P5 := rfl

/-! ## Entry by entry -/

/-- Entry `(p, o)` of the pre-activations is the affine image of row `p` of the two data blocks. -/
theorem preact_apply (P0 : Vec Ideal S1000x512 .f32) (P1 : Vec Ideal S1000x24 .f32) (P2 : Vec Ideal S512x512 .f32) (P3 : Vec Ideal S24x512 .f32)
    (P4 : Vec Ideal S512 .f32) (p : Fin 1000) (o : Fin 512) :
    preact P0 P1 P2 P3 P4 (ix2 p o)
      = affine (fun k => P0 (ix2 p k)) (fun j => P1 (ix2 p j)) (fun k o => P2 (ix2 k o)) (fun j o => P3 (ix2 j o)) (fun o => P4 (ix1 o)) o := by
  unfold preact affine
  rw [addf_apply, addf_apply, feat_product_apply, nbr_product_apply, broadcastTo_1b_ab_apply, shapeCast_a_1a_apply,
    shapeCast_self, shapeCast_self, shapeCast_self]
  rfl

/-- The lane sum of a block at row `p` is the sum of row `p`'s 512 entries. -/
theorem laneSum_apply (Y : FVec Ideal S1000x512 .f32) (hacc : (0x00000000#32 : BitVec 32) = 0x00000000#32) (p : Fin 1000) :
    multiReduction .add [1] S1000 Y 0x00000000#32 reduces_S1000x512_S1000 (.inl rfl) hacc (ix1 p) = ∑ k : Fin 512, Y (ix2 p k) :=
  (Ideal.multiReduction_add_single Y 0x00000000#32 reduces_S1000x512_S1000 (.inl rfl) hacc (ix1 p)).trans
    (Finset.sum_congr rfl fun k _ => congrArg Y (funext fun a => Fin.ext (by match a with | ⟨0, _⟩ => rfl | ⟨1, _⟩ => rfl)))

/-- The mean column at row `p` is the mean of row `p`. -/
theorem meanCol_apply (Y : FVec Ideal S1000x512 .f32) (p : Fin 1000) (u : Fin 1) :
    meanCol Y (ix2 p u) = mean (fun k => Y (ix2 p k)) := by
  unfold meanCol mean
  rw [divf_apply, shapeCast_a_a1_apply]
  exact congrArg (fun z => Ideal.div z width) (laneSum_apply Y _ p)

/-- The centred block at `(p, q)`. -/
theorem centred_apply (Y : FVec Ideal S1000x512 .f32) (p : Fin 1000) (q : Fin 512) :
    centred Y (ix2 p q) = Y (ix2 p q) - mean (fun k => Y (ix2 p k)) := by
  unfold centred
  rw [subf_apply, broadcastTo_a1_ab_apply, meanCol_apply]

/-- The mean column of the squared centred block at row `p` is the variance of row `p`. -/
theorem varCol_apply (Y : FVec Ideal S1000x512 .f32) (p : Fin 1000) (u : Fin 1) :
    meanCol (mulf (centred Y) (centred Y)) (ix2 p u) = var (fun k => Y (ix2 p k)) := by
  rw [meanCol_apply]
  have e : (fun k : Fin 512 => mulf (centred Y) (centred Y) (ix2 p k))
      = fun k => (Y (ix2 p k) - mean (fun k => Y (ix2 p k))) * (Y (ix2 p k) - mean (fun k => Y (ix2 p k))) :=
    funext fun k => by rw [mulf_apply, centred_apply]
  rw [e]
  rfl

/-- The normalised block at `(p, q)` is the normalised entry `q` of row `p`. -/
theorem normed_apply (Y : FVec Ideal S1000x512 .f32) (P5 : Vec Ideal S512 .f32) (p : Fin 1000) (q : Fin 512) :
    normed Y P5 (ix2 p q) = scaled (fun k => Y (ix2 p k)) (fun o => P5 (ix1 o)) q := by
  unfold normed scaled
  rw [mulf_apply, mulf_apply, broadcastTo_1b_ab_apply, shapeCast_a_1a_apply, centred_apply, broadcastTo_a1_ab_apply]
  show _ * _ * Ideal.rsqrt (meanCol (mulf (centred Y) (centred Y)) (ix2 p (0 : Fin 1)) + eps) = _
  rw [varCol_apply]

/-- The body's stored value before the shift and the clip, at `(p, q)`: the normalised entry `q` of the affine image
    of row `p` of the loads. -/
theorem pay_apply (P0 : Vec Ideal S1000x512 .f32) (P1 : Vec Ideal S1000x24 .f32) (P2 : Vec Ideal S512x512 .f32) (P3 : Vec Ideal S24x512 .f32)
    (P4 P5 : Vec Ideal S512 .f32) (p : Fin 1000) (q : Fin 512) :
    k0_pay2 P0 P1 P2 P3 P4 P5 (ix2 p q)
      = scaled (affine (fun k => P0 (ix2 p k)) (fun j => P1 (ix2 p j)) (fun k o => P2 (ix2 k o)) (fun j o => P3 (ix2 j o)) (fun o => P4 (ix1 o)))
          (fun o => P5 (ix1 o)) q := by
  rw [pay_eq, normed_apply]
  exact congrArg (fun y => scaled y (fun o => P5 (ix1 o)) q) (funext fun k => preact_apply P0 P1 P2 P3 P4 p k)

/-- The value the body stores, at `(p, q)`: entry `q` of the new row of the block's node `p`. -/
theorem stored_apply (P0 : Vec Ideal S1000x512 .f32) (P1 : Vec Ideal S1000x24 .f32) (P2 : Vec Ideal S512x512 .f32) (P3 : Vec Ideal S24x512 .f32)
    (P4 P5 P6 : Vec Ideal S512 .f32) (p : Fin 1000) (q : Fin 512) :
    k0_pay1 (k0_pay2 P0 P1 P2 P3 P4 P5) (k0_pay3 P6) (ix2 p q)
      = normRelu (affine (fun k => P0 (ix2 p k)) (fun j => P1 (ix2 p j)) (fun k o => P2 (ix2 k o)) (fun j o => P3 (ix2 j o)) (fun o => P4 (ix1 o)))
          (fun o => P5 (ix1 o)) (fun o => P6 (ix1 o)) q := by
  show max (k0_pay2 P0 P1 P2 P3 P4 P5 (ix2 p q)
      + broadcastTo S1000x512 (shapeCast S1x512 P6 shapeCasts_S512_S1x512) broadcasts_S1x512_S1000x512 (ix2 p q)) zero32 = _
  rw [pay_apply, broadcastTo_1b_ab_apply, shapeCast_a_1a_apply]
  rfl

end Cert.KernelIdeal.RowValue

end
-- ==== Proof.HostPrefix.lean ====
/-
  What the host leaves for the kernel region.

  Before the region the host computes the scaled neighbourhood sums (a scatter-add of the edge features into their
  destination nodes, times the per-node factor repeated along the row) and cuts the weight matrix into its two column
  bands, columns 0 to 511 and columns 512 to 535, each transposed. The result, written over the arrays the region
  finds, is the band form of the node update; reading the bands back as transposed slices of the weight matrix turns
  it into `nodeUpdate` of the arguments.
-/
import proofs.«178486_j32753420599856_1_alg».proof.Proof.Gen.KernelIdeal.Frame
import proofs.«178486_j32753420599856_1_alg».proof.Proof.RowNorm
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeRow
open Idealize.ShloMosaic.Pipeline (Dat)

variable (m : (ℓ : Loc nD τ sig) → Buf (Elt Ideal) ℓ) (ρ : Dev nD → PrngReg)

/-! ## What the host leaves for the region -/

/-- The scaled neighbourhood sums, as the host computes them from the edge features, the destinations and the per-node
    factor. -/
def scaledSums (c : Dev nD) : S100000x24.Idx → EReal :=
  mulf
    (Host.scatterAdd scatter_S100000x24_S3200000x1_S3200000x24_1_0_0_1
      (broadcastInDim S100000x24 ![] bcast_S_S100000x24 (constant (F := Ideal) S_ .f32 0x00000000#32))
      (broadcastInDim S3200000x1 ![0] bcast_S3200000_S3200000x1_0 (m ((c : Thread nD τ).loc main_arg2))) (m ((c : Thread nD τ).loc main_arg1)))
    (broadcastInDim S100000x24 ![0, 1] bcast_S100000x1_S100000x24_0_1 (m ((c : Thread nD τ).loc main_arg3)))

theorem V_sums (c : Dev nD) : (V m c main_v4 : S100000x24.Idx → EReal) = scaledSums m c := by
  unfold scaledSums
  dsimp only [V, hostOps0]; after_results

theorem V_band_x (c : Dev nD) : (V m c main_v6 : S512x512.Idx → EReal)
    = transpose S512x512 [1, 0] (extractStridedSlice S512x512 ![0, 0] (m ((c : Thread nD τ).loc main_arg4)) slices_S512x536_S512x512_0_0) transposes_S512x512_S512x512_1_0 := by
  dsimp only [V, hostOps0]; after_results

theorem V_band_a (c : Dev nD) : (V m c main_v8 : S24x512.Idx → EReal)
    = transpose S24x512 [1, 0] (extractStridedSlice S512x24 ![0, 512] (m ((c : Thread nD τ).loc main_arg4)) slices_S512x536_S512x24_0_512) transposes_S512x24_S24x512_1_0 := by
  dsimp only [V, hostOps0]; after_results

/-- The result as one function of the arrays the region finds. -/
def regionResult (c : Dev nD) : S100000x512.Idx → EReal :=
  bandUpdate (V m c main_arg0) (V m c main_v4) (V m c main_v6) (V m c main_v8) (V m c main_arg5) (V m c main_arg6) (V m c main_arg7)

/-- … which is `nodeUpdate` of the arguments and the scaled neighbourhood sums. -/
theorem regionResult_eq (c : Dev nD) :
    regionResult m c = nodeUpdate (m ((c : Thread nD τ).loc main_arg0)) (scaledSums m c) (m ((c : Thread nD τ).loc main_arg4)) (m ((c : Thread nD τ).loc main_arg5)) (m ((c : Thread nD τ).loc main_arg6)) (m ((c : Thread nD τ).loc main_arg7)) := by
  unfold regionResult
  rw [V_main_arg0, V_main_arg5, V_main_arg6, V_main_arg7, V_sums, V_band_x, V_band_a]
  exact bandUpdate_bands _ _ _ _ _ _ _ _ _ _

end Cert.KernelIdeal.ArrayValue

end
-- ==== Proof.BlockWrite.lean ====
/-
  What one grid point writes back.

  Grid point `t` is handed rows `1000 t` to `1000 t + 999` of the node features and of the scaled neighbourhood sums,
  and the whole of the two weight bands, the bias, the scale and the shift; it writes back rows `1000 t` to
  `1000 t + 999` of the result. Entry `(p, q)` of what it stores is entry `q` of the new row of the block's node `p`,
  which is array row `1000 t + p`: so what it writes back is block `t` of ONE function of the arrays the region finds.
-/
import proofs.«178486_j32753420599856_1_alg».proof.Proof.Gen.KernelIdeal.Value
import proofs.«178486_j32753420599856_1_alg».proof.Proof.KernelRow
import proofs.«178486_j32753420599856_1_alg».proof.Proof.HostPrefix

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeRow Cert.KernelIdeal.RowValue
open Idealize.ShloMosaic.Pipeline (Dat)

variable (m : (ℓ : Loc nD τ sig) → Buf (Elt Ideal) ℓ) (ρ : Dev nD → PrngReg)

/-! ## What point `t` writes back -/

theorem hz2 : (![0, 0] : Fin 2 → Nat) = fun _ => 0 := funext fun a => by fin_cases a <;> rfl
theorem hz1 : (![0] : Fin 1 → Nat) = fun _ => 0 := funext fun a => by fin_cases a; rfl

/-- The index maps, decided over the hundred points: the two data windows move down the rows with the output, one block
    a point; the bands, the bias, the scale and the shift stay put; the output's block row is the point's number. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (1 : Fin 2) = 0 ∧ win0_7.index t (0 : Fin 2) = t.val :=
  (by decide +kernel : ∀ t : Fin grid0.N, _)

/-- ONE ENTRY OF ONE BLOCK, over arbitrary arrays: with the seven input blocks of point `t` read off arrays `A0 … A6`,
    entry `q` of the new row of the block's node `p` is the band form of the node update at array row `1000 t + p`. -/
theorem block_entry (A0 : S100000x512.Idx → EReal) (A1 : S100000x24.Idx → EReal) (A2 : S512x512.Idx → EReal)
    (A3 : S24x512.Idx → EReal) (A4 A5 A6 : S512.Idx → EReal) (t : Fin cfg0.N) (p : Fin 1000) (q : Fin 512) :
    normRelu
        (affine (fun k => ((cfg0.win 0).blk t).view.read (Elt Ideal) A0 (ix2 p k)) (fun j => ((cfg0.win 1).blk t).view.read (Elt Ideal) A1 (ix2 p j))
          (fun k o => ((cfg0.win 2).blk t).view.read (Elt Ideal) A2 (ix2 k o)) (fun j o => ((cfg0.win 3).blk t).view.read (Elt Ideal) A3 (ix2 j o))
          (fun o => ((cfg0.win 4).blk t).view.read (Elt Ideal) A4 (ix1 o)))
        (fun o => ((cfg0.win 5).blk t).view.read (Elt Ideal) A5 (ix1 o)) (fun o => ((cfg0.win 6).blk t).view.read (Elt Ideal) A6 (ix1 o)) q
      = bandUpdate A0 A1 A2 A3 A4 A5 A6 (((cfg0.win 7).blk t).view.emb (ix2 p q)) := by
  obtain ⟨e00, e01, e10, e11, e20, e21, e30, e31, e4, e5, e6, e71, e70⟩ := idx_facts t
  have ht : t.val < 100 := t.isLt
  have hp : p.val < 1000 := p.isLt
  have hn : t.val * 1000 + p.val < 100000 := by omega
  -- the array row under block row `p` of point `t`
  have hrow : ((cfg0.win 7).blk t).view.emb (ix2 p q) = ix2 (⟨t.val * 1000 + p.val, hn⟩ : Fin 100000) q :=
    funext fun a => Fin.ext (by
      match a with
      | ⟨0, _⟩ => show win0_7.index t (0 : Fin 2) * 1000 + 1 * p.val = t.val * 1000 + p.val; omega
      | ⟨1, _⟩ => show win0_7.index t (1 : Fin 2) * 512 + 1 * q.val = q.val; omega)
  rw [hrow]
  show _ = normRelu
    (affine (fun k => A0 (ix2 (⟨t.val * 1000 + p.val, hn⟩ : Fin 100000) k)) (fun j => A1 (ix2 (⟨t.val * 1000 + p.val, hn⟩ : Fin 100000) j)) (fun k o => A2 (ix2 k o)) (fun j o => A3 (ix2 j o))
      (fun o => A4 (ix1 o)))
    (fun o => A5 (ix1 o)) (fun o => A6 (ix1 o)) q
  refine normRelu_affine_congr q (funext fun k => ?_) (funext fun jj => ?_) (funext fun k => funext fun o => ?_)
    (funext fun jj => funext fun o => ?_) (funext fun o => ?_) (funext fun o => ?_) (funext fun o => ?_)
  · show A0 (((cfg0.win 0).blk t).view.emb (ix2 p k)) = A0 (ix2 (⟨t.val * 1000 + p.val, hn⟩ : Fin 100000) k)
    refine congrArg A0 (funext fun a => Fin.ext ?_)
    match a with
    | ⟨0, _⟩ => show win0_0.index t (0 : Fin 2) * 1000 + 1 * p.val = t.val * 1000 + p.val; omega
    | ⟨1, _⟩ => show win0_0.index t (1 : Fin 2) * 512 + 1 * k.val = k.val; omega
  · show A1 (((cfg0.win 1).blk t).view.emb (ix2 p jj)) = A1 (ix2 (⟨t.val * 1000 + p.val, hn⟩ : Fin 100000) jj)
    refine congrArg A1 (funext fun a => Fin.ext ?_)
    match a with
    | ⟨0, _⟩ => show win0_1.index t (0 : Fin 2) * 1000 + 1 * p.val = t.val * 1000 + p.val; omega
    | ⟨1, _⟩ => show win0_1.index t (1 : Fin 2) * 24 + 1 * jj.val = jj.val; omega
  · show A2 (((cfg0.win 2).blk t).view.emb (ix2 k o)) = A2 (ix2 k o)
    refine congrArg A2 (funext fun a => Fin.ext ?_)
    match a with
    | ⟨0, _⟩ => show win0_2.index t (0 : Fin 2) * 512 + 1 * k.val = k.val; omega
    | ⟨1, _⟩ => show win0_2.index t (1 : Fin 2) * 512 + 1 * o.val = o.val; omega
  · show A3 (((cfg0.win 3).blk t).view.emb (ix2 jj o)) = A3 (ix2 jj o)
    refine congrArg A3 (funext fun a => Fin.ext ?_)
    match a with
    | ⟨0, _⟩ => show win0_3.index t (0 : Fin 2) * 24 + 1 * jj.val = jj.val; omega
    | ⟨1, _⟩ => show win0_3.index t (1 : Fin 2) * 512 + 1 * o.val = o.val; omega
  · show A4 (((cfg0.win 4).blk t).view.emb (ix1 o)) = A4 (ix1 o)
    refine congrArg A4 (funext fun a => Fin.ext ?_)
    match a with
    | ⟨0, _⟩ => show win0_4.index t (0 : Fin 1) * 512 + 1 * o.val = o.val; omega
  · show A5 (((cfg0.win 5).blk t).view.emb (ix1 o)) = A5 (ix1 o)
    refine congrArg A5 (funext fun a => Fin.ext ?_)
    match a with
    | ⟨0, _⟩ => show win0_5.index t (0 : Fin 1) * 512 + 1 * o.val = o.val; omega
  · show A6 (((cfg0.win 6).blk t).view.emb (ix1 o)) = A6 (ix1 o)
    refine congrArg A6 (funext fun a => Fin.ext ?_)
    match a with
    | ⟨0, _⟩ => show win0_6.index t (0 : Fin 1) * 512 + 1 * o.val = o.val; omega

/-- WHAT POINT `t` WRITES BACK is block `t` of `regionResult`. -/
theorem flushed_eq (c : Dev nD) (t : Fin cfg0.N) :
    (dats m 0 c).flushed 7 t = ((cfg0.win 7).blk t).view.read (Elt Ideal) (regionResult m c) := by
  rw [Value.flushed7]
  unfold out0_7
  rw [View.canon_unit_zero hz2]
  simp only [View.ld_unit_zero (S := S1000x512) hz2, View.ld_unit_zero (S := S1000x24) hz2, View.ld_unit_zero (S := S512x512) hz2,
    View.ld_unit_zero (S := S24x512) hz2, View.ld_unit_zero (S := S512) hz1]
  refine funext fun (j : S1000x512.Idx) => ?_
  obtain ⟨p, q, rfl⟩ : ∃ (p : Fin 1000) (q : Fin 512), j = ix2 p q := ⟨j 0, j 1, eq_ix2 j⟩
  show k0_pay1 (k0_pay2 (iblk m c 0 t) (iblk m c 1 t) (iblk m c 2 t) (iblk m c 3 t) (iblk m c 4 t) (iblk m c 5 t)) (k0_pay3 (iblk m c 6 t)) (ix2 p q)
    = regionResult m c (((cfg0.win 7).blk t).view.emb (ix2 p q))
  refine (stored_apply (iblk m c 0 t) (iblk m c 1 t) (iblk m c 2 t) (iblk m c 3 t) (iblk m c 4 t) (iblk m c 5 t) (iblk m c 6 t) p q).trans ?_
  exact block_entry (V m c main_arg0) (V m c main_v4) (V m c main_v6) (V m c main_v8) (V m c main_arg5) (V m c main_arg6) (V m c main_arg7) t p q

end Cert.KernelIdeal.ArrayValue

end
-- ==== Proof.KernelArray.lean ====
/-
  From the blocks to the whole array.

  The hundred blocks of 1000 rows tile the 100000 rows of the result: row `r` lies in the block of point `r / 1000`.
  Every point writes back its block of one function of the arrays the region finds, so the result array ends holding
  that function, which is `nodeUpdate` of the arguments and of the host's scaled neighbourhood sums.
-/
import proofs.«178486_j32753420599856_1_alg».proof.Proof.BlockWrite

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeRow Cert.KernelIdeal.RowValue
open Idealize.ShloMosaic.Pipeline (Dat)

variable (m : (ℓ : Loc nD τ sig) → Buf (Elt Ideal) ℓ) (ρ : Dev nD → PrngReg)

/-! ## The blocks tile the array -/

/-- An index of the array is in point `t`'s block iff each coordinate is in the block's range on its axis. -/
theorem mem_blk (t : Fin cfg0.N) (i : S100000x512.Idx) :
    i ∈ ((cfg0.win 7).blk t).view.set ↔ ∀ a : Fin 2, win0_7.index t a * S1000x512.size a ≤ (i a).val ∧ (i a).val < win0_7.index t a * S1000x512.size a + S1000x512.size a := by
  show i ∈ ((View.whole main_v9).slice (win0_7.rect t)).set ↔ _
  rw [View.set_slice_whole, Rect.mem_set_unit]
  exact Iff.rfl

/-- Row `r` lies in the block of point `r / 1000`. -/
theorem cover (i : S100000x512.Idx) : ∃ t : Fin cfg0.N, (cfg0.win 7).flush t = true ∧ i ∈ ((cfg0.win 7).blk t).view.set := by
  have hi0 : (i 0).val < 100000 := (i 0).isLt
  have hi1 : (i 1).val < 512 := (i 1).isLt
  have hlt : (i 0).val / 1000 < 100 := by omega
  refine ⟨⟨(i 0).val / 1000, hlt⟩, flush0_7 _, ?_⟩
  obtain ⟨-, -, -, -, -, -, -, -, -, -, -, e71, e70⟩ := idx_facts ⟨(i 0).val / 1000, hlt⟩
  have e70' : win0_7.index ⟨(i 0).val / 1000, hlt⟩ (0 : Fin 2) = (i 0).val / 1000 := e70
  rw [mem_blk]
  intro a
  match a with
  | ⟨0, _⟩ =>
    show win0_7.index ⟨(i 0).val / 1000, hlt⟩ (0 : Fin 2) * 1000 ≤ (i 0).val ∧ (i 0).val < win0_7.index ⟨(i 0).val / 1000, hlt⟩ (0 : Fin 2) * 1000 + 1000
    omega
  | ⟨1, _⟩ =>
    show win0_7.index ⟨(i 0).val / 1000, hlt⟩ (1 : Fin 2) * 512 ≤ (i 1).val ∧ (i 1).val < win0_7.index ⟨(i 0).val / 1000, hlt⟩ (1 : Fin 2) * 512 + 512
    omega

/-- THE ARRAY after the run is `regionResult`. -/
theorem final (c : Dev nD) : (dats m 0 c).arrAt 7 cfg0.N = regionResult m c :=
  (dats m 0 c).arrAt_eq_of_cover 7 (regionResult m c) (fun t _ => flushed_eq m c t) cover

/-! ## The run, read -/

/-- Every execution ends with the result array at `nodeUpdate` of the arguments and the scaled neighbourhood sums, the
    arguments unchanged. -/
theorem run : θ_run defs (onTc (τ := τ) (main (F := Ideal))) ⟨m, fun _ => 0, ρ⟩ fun r => ∀ c : Dev nD,
      r.2.mem ((c : Thread nD τ).loc main_v9) = nodeUpdate (m ((c : Thread nD τ).loc main_arg0)) (scaledSums m c) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (regionResult_eq m c)), (h c).2⟩)
    (Value.run_blocks m ρ)

end Cert.KernelIdeal.ArrayValue

end
-- ==== Proof.RefRow.lean ====
/-
  The reference, read entry by entry.

  The reference joins each node's 512 features and its 24 scaled neighbourhood sums into one row of 536, contracts it
  with the weight matrix's rows, adds the bias, and normalises each row of the result. Read at `(n, o)`, the
  contraction is a sum over the 536 joined coordinates; split at 512, its first part reads the node's features and its
  second part the neighbourhood sums, so the pre-activation is the affine image of the two rows. The row sums, the
  division by 512, the centring, the variance, the reciprocal square root, the scale, the shift and the clip then read
  as the normalisation of that row. The host's sums start from zero, which adds nothing.
-/
import proofs.«178486_j32753420599856_1_alg».proof.Proof.Gen.ReferenceIdeal.Read
import proofs.«178486_j32753420599856_1_alg».proof.Proof.RowNorm

noncomputable section

namespace Cert.ReferenceIdeal.RowValue

open Cert.ReferenceIdeal Cert.ReferenceIdeal.Gen Cert.ReferenceIdeal.Read Idealize.ShloMosaic Idealize.ShloMosaic.ValueIdx Cert.NodeRow

variable (x0 : (⟨S100000x512, .f32⟩ : BufTy).Contents (Elt Ideal)) (x1 : (⟨S3200000x24, .f32⟩ : BufTy).Contents (Elt Ideal))
  (x2 : (⟨S3200000, .i32⟩ : BufTy).Contents (Elt Ideal)) (x3 : (⟨S100000x1, .f32⟩ : BufTy).Contents (Elt Ideal))
  (x4 : (⟨S512x536, .f32⟩ : BufTy).Contents (Elt Ideal)) (x5 x6 x7 : (⟨S512, .f32⟩ : BufTy).Contents (Elt Ideal))

/-- The joined row at a coordinate below 512 is the node's feature there. -/
theorem joined_left (n : Fin 100000) (o : Fin 512) (k : Fin 512) :
    val_main_v5 (F := Ideal) x0 x1 x2 x3 (lidx_main_v6 (ix2 n o) ⟨k.val, by omega⟩) = x0 (ix2 n k) := by
  unfold val_main_v5
  exact concatenate_pair_apply_left 1 x0 _ concatenates_S100000x512_S100000x24_S100000x536_d1 _ rfl (ix2 n k)
    (fun b => match b with | ⟨0, _⟩ => rfl | ⟨1, _⟩ => rfl)

/-- The joined row at coordinate `512 + j` is the node's scaled neighbourhood sum `j`. -/
theorem joined_right (n : Fin 100000) (o : Fin 512) (j : Fin 24) :
    val_main_v5 (F := Ideal) x0 x1 x2 x3 (lidx_main_v6 (ix2 n o) ⟨512 + j.val, by omega⟩)
      = val_main_v4 (F := Ideal) x1 x2 x3 (ix2 n j) := by
  unfold val_main_v5
  exact concatenate_pair_apply_right 1 x0 _ concatenates_S100000x512_S100000x24_S100000x536_d1 _ rfl rfl (ix2 n j)
    (fun b hb => match b, hb with
      | ⟨0, _⟩, _ => rfl
      | ⟨1, _⟩, hb => absurd rfl hb)
    (Nat.add_comm _ _)

/-- The pre-activation at `(n, o)` is the affine image of node `n`'s two rows. -/
theorem preact_apply (n : Fin 100000) (o : Fin 512) :
    val_main_v9 (F := Ideal) x0 x1 x2 x3 x4 x5 (ix2 n o)
      = affine (fun k => x0 (ix2 n k)) (fun j => val_main_v4 (F := Ideal) x1 x2 x3 (ix2 n j))
          (fun k o => x4 (ix2 o ⟨k.val, by omega⟩)) (fun j o => x4 (ix2 o ⟨512 + j.val, by omega⟩)) (fun o => x5 (ix1 o)) o := by
  rw [val_main_v9_apply, val_main_v6_apply, val_main_v8_apply, val_main_v7_apply, sum_concat]
  unfold affine
  refine congrArg₂ (· + ·) (congrArg₂ (· + ·) (Finset.sum_congr rfl fun k _ => ?_) (Finset.sum_congr rfl fun j _ => ?_)) (congrArg x5 ?_)
  · rw [joined_left]
    exact congrArg (x0 (ix2 n k) * x4 ·) (funext fun a => Fin.ext (by match a with | ⟨0, _⟩ => rfl | ⟨1, _⟩ => rfl))
  · rw [joined_right]
    exact congrArg (val_main_v4 (F := Ideal) x1 x2 x3 (ix2 n j) * x4 ·) (funext fun a => Fin.ext (by match a with | ⟨0, _⟩ => rfl | ⟨1, _⟩ => rfl))
  · exact funext fun a => Fin.ext (by match a with | ⟨0, _⟩ => rfl)

/-- Node `n`'s pre-activation row. -/
abbrev row (n : Fin 100000) : Fin 512 → EReal := fun o => val_main_v9 (F := Ideal) x0 x1 x2 x3 x4 x5 (ix2 n o)

/-- The column of means at `n` is the mean of node `n`'s row. -/
theorem mean_apply (n : Fin 100000) (u : Fin 1) :
    val_main_v13 (F := Ideal) x0 x1 x2 x3 x4 x5 (ix2 n u) = mean (row x0 x1 x2 x3 x4 x5 n) := by
  rw [val_main_v13_apply, val_main_v11_apply, val_main_v10_apply, val_main_v12_apply, val_main_cst_1_apply, val_main_cst_0_apply]
  unfold mean
  show Ideal.div (Ideal.ofBits .f32 0x00000000#32 + _) width = _
  rw [Ideal.ofBits_zero_f32, zero_add]
  refine congrArg (Ideal.div · width) (Finset.sum_congr rfl fun k _ => ?_)
  exact congrArg (val_main_v9 (F := Ideal) x0 x1 x2 x3 x4 x5) (funext fun a => Fin.ext (by match a with | ⟨0, _⟩ => rfl | ⟨1, _⟩ => rfl))

/-- The centred array at `(n, q)` (the reference computes it twice, the same way). -/
theorem centred_apply (n : Fin 100000) (q : Fin 512) :
    val_main_v15 (F := Ideal) x0 x1 x2 x3 x4 x5 (ix2 n q) = row x0 x1 x2 x3 x4 x5 n q - mean (row x0 x1 x2 x3 x4 x5 n) := by
  have e : idx_main_v14 (ix2 n q) = ix2 n (0 : Fin 1) :=
    funext fun a => Fin.ext (by match a with | ⟨0, _⟩ => rfl | ⟨1, _⟩ => rfl)
  rw [val_main_v15_apply, val_main_v14_apply, e, mean_apply]
  rfl

theorem centred_apply' (n : Fin 100000) (q : Fin 512) :
    val_main_v22 (F := Ideal) x0 x1 x2 x3 x4 x5 (ix2 n q) = row x0 x1 x2 x3 x4 x5 n q - mean (row x0 x1 x2 x3 x4 x5 n) := by
  have e : idx_main_v21 (ix2 n q) = ix2 n (0 : Fin 1) :=
    funext fun a => Fin.ext (by match a with | ⟨0, _⟩ => rfl | ⟨1, _⟩ => rfl)
  rw [val_main_v22_apply, val_main_v21_apply, e, mean_apply]
  rfl

/-- The column of variances at `n` is the variance of node `n`'s row. -/
theorem var_apply (n : Fin 100000) (u : Fin 1) :
    val_main_v20 (F := Ideal) x0 x1 x2 x3 x4 x5 (ix2 n u) = var (row x0 x1 x2 x3 x4 x5 n) := by
  rw [val_main_v20_apply, val_main_v18_apply, val_main_v17_apply, val_main_v19_apply, val_main_cst_3_apply, val_main_cst_2_apply]
  unfold var
  show Ideal.div (Ideal.ofBits .f32 0x00000000#32 + _) width = _
  rw [Ideal.ofBits_zero_f32, zero_add]
  refine congrArg (Ideal.div · width) (Finset.sum_congr rfl fun k _ => ?_)
  have e : idx_main_v17 (idx_main_v18 (ix2 n u)) k = ix2 n k :=
    funext fun a => Fin.ext (by match a with | ⟨0, _⟩ => rfl | ⟨1, _⟩ => rfl)
  rw [e, val_main_v16_apply, centred_apply]
  rfl

/-- The result at `(n, q)` is entry `q` of node `n`'s normalised, shifted, clipped row. -/
theorem result_apply (n : Fin 100000) (q : Fin 512) :
    val_main_v34 (F := Ideal) x0 x1 x2 x3 x4 x5 x6 x7 (ix2 n q)
      = normRelu (row x0 x1 x2 x3 x4 x5 n) (fun o => x6 (ix1 o)) (fun o => x7 (ix1 o)) q := by
  have e29 : idx_main_v29 (ix2 n q) = ix2 n (0 : Fin 1) :=
    funext fun a => Fin.ext (by match a with | ⟨0, _⟩ => rfl | ⟨1, _⟩ => rfl)
  have e6 : idx_main_v23 (idx_main_v24 (ix2 n q)) = ix1 q :=
    funext fun a => Fin.ext (by match a with | ⟨0, _⟩ => rfl)
  have e7 : idx_main_v31 (idx_main_v32 (ix2 n q)) = ix1 q :=
    funext fun a => Fin.ext (by match a with | ⟨0, _⟩ => rfl)
  rw [val_main_v34_apply, val_main_v33_apply, val_main_v30_apply, val_main_v25_apply, val_main_v24_apply, val_main_v23_apply,
    centred_apply', val_main_v29_apply, val_main_v28_apply, val_main_v27_apply, val_main_v26_apply, val_main_cst_4_apply,
    val_main_v32_apply, val_main_v31_apply, val_main_call0_v0_apply, val_main_call0_cst_apply, e29, e6, e7, var_apply]
  rfl

/-- The reference's whole result is `nodeUpdate` of its arguments and of its own scaled neighbourhood sums. -/
theorem result_eq :
    val_main_v34 (F := Ideal) x0 x1 x2 x3 x4 x5 x6 x7 = nodeUpdate x0 (val_main_v4 (F := Ideal) x1 x2 x3) x4 x5 x6 x7 := by
  funext i
  obtain ⟨n, q, rfl⟩ : ∃ (n : Fin 100000) (q : Fin 512), i = ix2 n q := ⟨i 0, i 1, eq_ix2 i⟩
  rw [result_apply]
  unfold nodeUpdate
  exact congrArg (fun y => normRelu y (fun o => x6 (ix1 o)) (fun o => x7 (ix1 o)) q) (funext fun o => preact_apply x0 x1 x2 x3 x4 x5 n o)

end Cert.ReferenceIdeal.RowValue

end
-- ==== Proof.lean ====
/-
  A graph layer's node update: each node's 512 features and the sum of its incoming edges' 24 features, scaled by a
  per-node factor, go through one affine layer into 512 outputs; each output row is normalised (mean and biased
  variance over the row, scale, shift) and clipped below at zero.

  The kernel and the reference agree on everything but the affine layer's arrangement. The reference joins the two
  inputs into rows of 536 and contracts them with the weight matrix in one product. The kernel cuts the weight matrix
  into its first 512 and last 24 columns, transposes both bands on the host, and adds two block products over blocks
  of 1000 rows. On the extended reals a sum over the 536 joined coordinates is the sum over the first 512 plus the
  sum over the last 24, by commutativity and associativity of addition alone, so both sides compute one function of
  the arguments, `Cert.NodeRow.nodeUpdate`: no input needs to be finite for this, and the precondition is never
  opened. The edge sums are the same host scatter-add on both sides and enter as one shared term. Changes of float
  format are the identity on the extended reals; the row length 512, the variance's small constant and zero are the
  same float words in both programs.

  The kernel's side is its generated frame run with the result array named, the per-entry reading of one grid
  point's stored value (Proof/KernelRow.lean) and the tiling of the rows by the hundred blocks
  (Proof/KernelArray.lean); the reference's side is its generated run read stage by stage (Proof/RefRow.lean).
  The idealization applied no rewrite, so `preserves` holds trivially.
-/
import proofs.«178486_j32753420599856_1_alg».proof.Defs
import proofs.«178486_j32753420599856_1_alg».proof.Proof.Gen.Kernel
import proofs.«178486_j32753420599856_1_alg».proof.Proof.Gen.Kernel.Skeleton
import proofs.«178486_j32753420599856_1_alg».proof.Proof.Gen.Kernel.Launch
import proofs.«178486_j32753420599856_1_alg».proof.Proof.Gen.Kernel.Points
import proofs.«178486_j32753420599856_1_alg».proof.Proof.Gen.Kernel.Frame
import proofs.«178486_j32753420599856_1_alg».proof.Proof.Gen.KernelIdeal
import proofs.«178486_j32753420599856_1_alg».proof.Proof.Gen.KernelIdeal.Skeleton
import proofs.«178486_j32753420599856_1_alg».proof.Proof.Gen.KernelIdeal.Launch
import proofs.«178486_j32753420599856_1_alg».proof.Proof.Gen.KernelIdeal.Points
import proofs.«178486_j32753420599856_1_alg».proof.Proof.Gen.KernelIdeal.Frame
import proofs.«178486_j32753420599856_1_alg».proof.Proof.Gen.ReferenceIdeal
import proofs.«178486_j32753420599856_1_alg».proof.Proof.Gen.Pre_finite_inputs
import proofs.«178486_j32753420599856_1_alg».proof.Proof.Gen.KernelIdeal.Value
import proofs.«178486_j32753420599856_1_alg».proof.Proof.Gen.ReferenceIdeal.Run
import proofs.«178486_j32753420599856_1_alg».proof.Proof.Gen.ReferenceIdeal.Read
import proofs.«178486_j32753420599856_1_alg».proof.Proof.KernelArray
import proofs.«178486_j32753420599856_1_alg».proof.Proof.RefRow
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result array at `nodeUpdate` of the
    arguments and of the host's scaled neighbourhood sums. -/
theorem algebraic : Cert.algebraic_KernelIdeal_ReferenceIdeal := by
  intro m ρ m' ρ' _ hagree
  refine ⟨fun c => Cert.NodeRow.nodeUpdate (m ((c.tc : Thread Cert.KernelIdeal.nD Cert.KernelIdeal.τ).loc Cert.KernelIdeal.main_arg0)) (Cert.KernelIdeal.ArrayValue.scaledSums m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v34_eq, Cert.ReferenceIdeal.RowValue.result_eq, h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
